-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S4x64 : Shape := ⟨2, ![4, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S128x64 .f32) (main_arg7 : FVec F S64 .f32) (main_arg8 : FVec F S64x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x4 .f32) (main_arg1 : IVec S2x1600000 32) (main_arg2 : FVec F S4x64 .f32) (main_arg3 : FVec F S64 .f32) (main_arg4 : FVec F S64x64 .f32) (main_arg5 : FVec F S64 .f32) (main_arg6 : FVec F S128x64 .f32) (main_arg7 : FVec F S64 .f32) (main_arg8 : FVec F S64x1 .f32) (main_arg9 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x64 .f32 := Host.absf main_arg2
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x4 : Shape := ⟨2, ![100000, 4]⟩
abbrev S2x1600000 : Shape := ⟨2, ![2, 1600000]⟩
abbrev S4x64 : Shape := ⟨2, ![4, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x4 : Shape := ⟨2, ![10000, 4]⟩
abbrev S10000x64 : Shape := ⟨2, ![10000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1600000x128 : Shape := ⟨2, ![1600000, 128]⟩
abbrev S1x1 : Shape := ⟨2, ![1, 1]⟩
abbrev S6400x128 : Shape := ⟨2, ![6400, 128]⟩
abbrev S6400x1 : Shape := ⟨2, ![6400, 1]⟩
abbrev S6400x64 : Shape := ⟨2, ![6400, 64]⟩

abbrev nBuf : Space → Nat
  | .hbm => 119
  | .vmem => 18
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S4x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000x64, .f32⟩
  | .hbm, ⟨105, _⟩ => ⟨S_, .i32⟩
  | .hbm, ⟨106, _⟩ => ⟨S1600000, .i32⟩
  | .hbm, ⟨107, _⟩ => ⟨S1600000, .i1⟩
  | .hbm, ⟨108, _⟩ => ⟨S_, .i32⟩
  | .hbm, ⟨109, _⟩ => ⟨S1600000, .i32⟩
  | .hbm, ⟨110, _⟩ => ⟨S1600000, .i32⟩
  | .hbm, ⟨111, _⟩ => ⟨S1600000, .i32⟩
  | .hbm, ⟨112, _⟩ => ⟨S1600000x1, .i32⟩
  | .hbm, ⟨113, _⟩ => ⟨S1600000x64, .f32⟩
  | .hbm, ⟨114, _⟩ => ⟨S1600000x128, .f32⟩
  | .hbm, ⟨115, _⟩ => ⟨S1x64, .f32⟩
  | .hbm, ⟨116, _⟩ => ⟨S1x1, .f32⟩
  | .hbm, ⟨117, _⟩ => ⟨S1600000x1, .f32⟩
  | .hbm, ⟨118, _⟩ => ⟨S1600000, .f32⟩
  | .local _ .vmem, ⟨0, _⟩ => ⟨S10000x4, .f32⟩
  | .local _ .vmem, ⟨1, _⟩ => ⟨S10000x4, .f32⟩
  | .local _ .vmem, ⟨2, _⟩ => ⟨S4x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S6400x128, .f32⟩
  | .local _ .vmem, ⟨11, _⟩ => ⟨S6400x128, .f32⟩
  | .local _ .vmem, ⟨12, _⟩ => ⟨S128x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S6400x1, .f32⟩
  | .local _ .vmem, ⟨17, _⟩ => ⟨S6400x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_c_12 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_14 : Ref sig .tc := ⟨.hbm, 105, rfl⟩
abbrev main_v73 : Ref sig .tc := ⟨.hbm, 106, rfl⟩
abbrev main_v74 : Ref sig .tc := ⟨.hbm, 107, rfl⟩
abbrev main_c_15 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6400x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x4_S10000x4_0_0 : ∀ a, (![0, 0] : Fin 2 → Nat) a + S10000x4.size a ≤ S10000x4.size a
  h_S10000x4 : 0 < S10000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S1_S1x1_1 : S1.BroadcastsInDim S1x1 (![1] : Fin 1 → Fin S1x1.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  inb_S6400x1_S6400x1_0_0 : ∀ a, (![0, 0] : Fin 2 → Nat) a + S6400x1.size a ≤ S6400x1.size a
  h_S6400x1 : 0 < S6400x1.numel
  shapeCasts_S1600000x1_S1600000 : S1600000x1.ShapeCasts S1600000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x4_S4x64_S10000x64_1_0_0_1_n_n_wf : DotDims.WF S10000x4 S4x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  dot_S6400x128_S128x64_S6400x64_1_0_0_1_n_n_wf : DotDims.WF S6400x128 S128x64 S6400x64 [1] [0] [0] [1] [] []
  dot_S6400x64_S64x1_S6400x1_1_0_0_1_n_n_wf : DotDims.WF S6400x64 S64x1 S6400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S100000x4.size a
  hwx0_0 : ∀ i : grid0.Coords, EltTy.bits .f32 = 32 ∨ (Rect.block (s := S100000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x128.size a ≤ S1600000x128.size a
  hwx2_0 : ∀ i : grid2.Coords, EltTy.bits .f32 = 32 ∨ (Rect.block (s := S1600000x128) S6400x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6400x1.size a ≤ S1600000x1.size a
  hwx2_5 : ∀ i : grid2.Coords, EltTy.bits .f32 = 32 ∨ (Rect.block (s := S1600000x1) S6400x1.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x4_S4x64_S10000x64_1_0_0_1_n_n : DotDims S10000x4 S4x64 S10000x64 where
  lhsContracting := [1]
  rhsContracting := [0]
  lhsNonContracting := [0]
  rhsNonContracting := [1]
  lhsBatch := []
  rhsBatch := []
  wf := dot_S10000x4_S4x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def dot_S6400x64_S64x1_S6400x1_1_0_0_1_n_n : DotDims S6400x64 S64x1 S6400x1 where
  lhsContracting := [1]
  rhsContracting := [0]
  lhsNonContracting := [0]
  rhsNonContracting := [1]
  lhsBatch := []
  rhsBatch := []
  wf := dot_S6400x64_S64x1_S6400x1_1_0_0_1_n_n_wf

abbrev win0_0 : Pipeline.Window sig grid0 :=
  Pipeline.Window.ofSpec (Memref.whole main_arg0) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v80) S6400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v81) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v82) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v83) S6400x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S4x64 : Shape := ⟨2, ![4, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1600000x128 : Shape := ⟨2, ![1600000, 128]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S4x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000x64, .f32⟩
  | .hbm, ⟨105, _⟩ => ⟨S_, .i32⟩
  | .hbm, ⟨106, _⟩ => ⟨S1600000, .i32⟩
  | .hbm, ⟨107, _⟩ => ⟨S1600000, .i1⟩
  | .hbm, ⟨108, _⟩ => ⟨S_, .i32⟩
  | .hbm, ⟨109, _⟩ => ⟨S1600000, .i32⟩
  | .hbm, ⟨110, _⟩ => ⟨S1600000, .i32⟩
  | .hbm, ⟨111, _⟩ => ⟨S1600000, .i32⟩
  | .hbm, ⟨112, _⟩ => ⟨S1600000x1, .i32⟩
  | .hbm, ⟨113, _⟩ => ⟨S1600000x64, .f32⟩
  | .hbm, ⟨114, _⟩ => ⟨S1600000x128, .f32⟩
  | .hbm, ⟨115, _⟩ => ⟨S1600000x64, .f32⟩
  | .hbm, ⟨116, _⟩ => ⟨S1x64, .f32⟩
  | .hbm, ⟨117, _⟩ => ⟨S1600000x64, .f32⟩
  | .hbm, ⟨118, _⟩ => ⟨S1600000x64, .f32⟩
  | .hbm, ⟨119, _⟩ => ⟨S_, .f32⟩
  | .hbm, ⟨120, _⟩ => ⟨S1600000x64, .f32⟩
  | .hbm, ⟨121, _⟩ => ⟨S1600000x64, .f32⟩
  | .hbm, ⟨122, _⟩ => ⟨S1600000x1, .f32⟩
  | .hbm, ⟨123, _⟩ => ⟨S1x1, .f32⟩
  | .hbm, ⟨124, _⟩ => ⟨S1600000x1, .f32⟩
  | .hbm, ⟨125, _⟩ => ⟨S1600000x1, .f32⟩
  | .hbm, ⟨126, _⟩ => ⟨S1600000, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_c_12 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_14 : Ref sig .tc := ⟨.hbm, 105, rfl⟩
abbrev main_v73 : Ref sig .tc := ⟨.hbm, 106, rfl⟩
abbrev main_v74 : Ref sig .tc := ⟨.hbm, 107, rfl⟩
abbrev main_c_15 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call3_cst : Ref sig .tc := ⟨.hbm, 119, rfl⟩
abbrev main_call3_v0 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x4_S4x64_S100000x64_1_0_0_1_n_n_wf : DotDims.WF S100000x4 S4x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  dot_S1600000x64_S64x1_S1600000x1_1_0_0_1_n_n_wf : DotDims.WF S1600000x64 S64x1 S1600000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf

class Facts : Prop extends Facts₀ where

variable [Facts]
-- ==== Proof.RefRun.lean ====
/-
  The reference's run, read stage by stage.

  The reference is one line of 117 host operations. Cut into six consecutive pieces — the graph's index lists and
  edge weights; the first node transform; the first layer; the second node transform; the second layer and the edge
  features; the edge score — the contents of each buffer a later piece reads are, after each piece, the stage function
  the read module names for that buffer, of the launch arguments: within a piece each operation's result is its
  function of its operands' contents, a buffer the piece does not write is carried across it, and the pieces compose
  because running a concatenation is running its parts in turn. The run of the whole line then ends with the result
  buffer at the last stage function and the arguments as launched.
-/
import proofs.«146199_j7834020348027_1_alg».proof.Proof.RefReadP
import Idealize.ShloMosaic.Lib.StableHlo.Run
import Idealize.ShloMosaic.Lib.Pipeline.Frame

set_option maxRecDepth 16384

noncomputable section

namespace Cert.ReferenceIdeal.RunStages

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The line in six pieces -/

/-- The index lists, the degrees and the edge weights (through the weight of every edge). -/
abbrev ops1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The first node transform. -/
abbrev ops2 : List (HloOp τ sig (Elt F)) :=
  [ binary main_arg0 main_arg2 main_v30 ((fun l r => Host.dotGeneral dot_S100000x4_S4x64_S100000x64_1_0_0_1_n_n none l r) : (⟨S100000x4, .f32⟩ : BufTy).Contents (Elt F) → (⟨S4x64, .f32⟩ : BufTy).Contents (Elt F) → (⟨S100000x64, .f32⟩ : BufTy).Contents (Elt F)) ]

/-- The first layer: gather, weight, scatter-add, bias, positive part. -/
abbrev ops3 : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

/-- The second node transform. -/
abbrev ops4 : List (HloOp τ sig (Elt F)) :=
  [ binary main_v47 main_arg4 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- The second layer, and the edge features. -/
abbrev ops5 : List (HloOp τ sig (Elt F)) :=
  [ nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v5 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v5 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v5 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x64 ![0, 1] bcast_S1700000x1_S1700000x64_0_1 : (⟨S1700000x1, .f32⟩ : BufTy).Contents (Elt F) → (⟨S1700000x64, .f32⟩ : BufTy).Contents (Elt F)),
    binary main_v55 main_v57 main_v58 (mulf : (⟨S1700000x64, .f32⟩ : BufTy).Contents (Elt F) → (⟨S1700000x64, .f32⟩ : BufTy).Contents (Elt F) → (⟨S1700000x64, .f32⟩ : BufTy).Contents (Elt F)),
    nullary main_cst_11 (constant S_ .f32 0x00000000#32),
    unary main_cst_11 main_v59 (broadcastInDim S100000x64 ![] bcast_S_S100000x64 : (⟨S_, .f32⟩ : BufTy).Contents (Elt F) → (⟨S100000x64, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v64) (TRef.of (T := ⟨S100000x64, .f32⟩) main_call2_v0) (TRef.of (T := ⟨S100000x64, .f32⟩) main_v65) maximumf,
    nullary main_c_12 (constantI S_ 32 0#32),
    unary main_c_12 main_v66 (broadcastInDim S1600000 ![] bcast_S_S1600000 : (⟨S_, .i32⟩ : BufTy).Contents (Elt F) → (⟨S1600000, .i32⟩ : BufTy).Contents (Elt F)),
    binary main_v1 main_v66 main_v67 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v68 (broadcastInDim S1600000 ![] bcast_S_S1600000 : (⟨S_, .i32⟩ : BufTy).Contents (Elt F) → (⟨S1600000, .i32⟩ : BufTy).Contents (Elt F)),
    binary main_v1 main_v68 main_v69 (addi : (⟨S1600000, .i32⟩ : BufTy).Contents (Elt F) → (⟨S1600000, .i32⟩ : BufTy).Contents (Elt F) → (⟨S1600000, .i32⟩ : BufTy).Contents (Elt F)),
    ternary main_v67 main_v69 main_v1 main_v70 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v70 main_v71 (broadcastInDim S1600000x1 ![0] bcast_S1600000_S1600000x1_0 : (⟨S1600000, .i32⟩ : BufTy).Contents (Elt F) → (⟨S1600000x1, .i32⟩ : BufTy).Contents (Elt F)),
    binary main_v65 main_v71 main_v72 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_14 (constantI S_ 32 0#32),
    unary main_c_14 main_v73 (broadcastInDim S1600000 ![] bcast_S_S1600000 : (⟨S_, .i32⟩ : BufTy).Contents (Elt F) → (⟨S1600000, .i32⟩ : BufTy).Contents (Elt F)),
    binary main_v3 main_v73 main_v74 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v75 (broadcastInDim S1600000 ![] bcast_S_S1600000 : (⟨S_, .i32⟩ : BufTy).Contents (Elt F) → (⟨S1600000, .i32⟩ : BufTy).Contents (Elt F)),
    binary main_v3 main_v75 main_v76 (addi : (⟨S1600000, .i32⟩ : BufTy).Contents (Elt F) → (⟨S1600000, .i32⟩ : BufTy).Contents (Elt F) → (⟨S1600000, .i32⟩ : BufTy).Contents (Elt F)),
    ternary main_v74 main_v76 main_v3 main_v77 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v77 main_v78 (broadcastInDim S1600000x1 ![0] bcast_S1600000_S1600000x1_0 : (⟨S1600000, .i32⟩ : BufTy).Contents (Elt F) → (⟨S1600000x1, .i32⟩ : BufTy).Contents (Elt F)),
    binary main_v65 main_v78 main_v79 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v72 main_v79 main_v80 ((fun a b => concatenate S1600000x128 1 [⟨S1600000x64, a⟩, ⟨S1600000x64, b⟩] concatenates_S1600000x64_S1600000x64_S1600000x128_d1) : (⟨S1600000x64, .f32⟩ : BufTy).Contents (Elt F) → (⟨S1600000x64, .f32⟩ : BufTy).Contents (Elt F) → (⟨S1600000x128, .f32⟩ : BufTy).Contents (Elt F)) ]

/-- The edge score. -/
abbrev ops6 : List (HloOp τ sig (Elt F)) :=
  [ binary main_v80 main_arg6 main_v81 ((fun l r => Host.dotGeneral dot_S1600000x128_S128x64_S1600000x64_1_0_0_1_n_n none l r) : (⟨S1600000x128, .f32⟩ : BufTy).Contents (Elt F) → (⟨S128x64, .f32⟩ : BufTy).Contents (Elt F) → (⟨S1600000x64, .f32⟩ : BufTy).Contents (Elt F)),
    unary main_arg7 main_v82 (broadcastInDim S1x64 ![1] bcast_S64_S1x64_1 : (⟨S64, .f32⟩ : BufTy).Contents (Elt F) → (⟨S1x64, .f32⟩ : BufTy).Contents (Elt F)),
    unary main_v82 main_v83 (broadcastInDim S1600000x64 ![0, 1] bcast_S1x64_S1600000x64_0_1 : (⟨S1x64, .f32⟩ : BufTy).Contents (Elt F) → (⟨S1600000x64, .f32⟩ : BufTy).Contents (Elt F)),
    binary main_v81 main_v83 main_v84 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1600000x64, .f32⟩) main_call3_v0) (broadcastInDim S1600000x64 ![] bcast_S_S1600000x64),
    TRef.binary (TRef.of (T := ⟨S1600000x64, .f32⟩) main_v84) (TRef.of (T := ⟨S1600000x64, .f32⟩) main_call3_v0) (TRef.of (T := ⟨S1600000x64, .f32⟩) main_v85) maximumf,
    binary main_v85 main_arg8 main_v86 ((fun l r => Host.dotGeneral dot_S1600000x64_S64x1_S1600000x1_1_0_0_1_n_n none l r) : (⟨S1600000x64, .f32⟩ : BufTy).Contents (Elt F) → (⟨S64x1, .f32⟩ : BufTy).Contents (Elt F) → (⟨S1600000x1, .f32⟩ : BufTy).Contents (Elt F)),
    unary main_arg9 main_v87 (broadcastInDim S1x1 ![1] bcast_S1_S1x1_1 : (⟨S1, .f32⟩ : BufTy).Contents (Elt F) → (⟨S1x1, .f32⟩ : BufTy).Contents (Elt F)),
    unary main_v87 main_v88 (broadcastInDim S1600000x1 ![0, 1] bcast_S1x1_S1600000x1_0_1 : (⟨S1x1, .f32⟩ : BufTy).Contents (Elt F) → (⟨S1600000x1, .f32⟩ : BufTy).Contents (Elt F)),
    binary main_v86 main_v88 main_v89 (addf : (⟨S1600000x1, .f32⟩ : BufTy).Contents (Elt F) → (⟨S1600000x1, .f32⟩ : BufTy).Contents (Elt F) → (⟨S1600000x1, .f32⟩ : BufTy).Contents (Elt F)),
    reshape main_v89 main_v90 rfl shapeCasts_S1600000x1_S1600000 ]

/-- The line is its pieces in order. -/
theorem ops_eq : (ops : List (HloOp τ sig (Elt F))) = ops1 ++ (ops2 ++ (ops3 ++ (ops4 ++ (ops5 ++ ops6)))) := rfl

/-! ## The contents after each piece, from contents `V` at launch -/

variable (V : Valuation τ sig (Elt F))

/-- After the first piece. -/
def B1 : Valuation τ sig (Elt F) := after ops1 V
/-- After the first node transform. -/
def B2 : Valuation τ sig (Elt F) := after ops2 (B1 V)
/-- After the first layer. -/
def B3 : Valuation τ sig (Elt F) := after ops3 (B2 V)
/-- After the second node transform. -/
def B4 : Valuation τ sig (Elt F) := after ops4 (B3 V)
/-- After the second layer and the edge features. -/
def B5 : Valuation τ sig (Elt F) := after ops5 (B4 V)
/-- After the edge score: the end of the line. -/
def B6 : Valuation τ sig (Elt F) := after ops6 (B5 V)

theorem after_ops : after ops V = B6 V := by
  rw [ops_eq, StableHlo.after_append, StableHlo.after_append, StableHlo.after_append, StableHlo.after_append, StableHlo.after_append]
  rfl

/-! ### After the first piece -/

theorem B1_v1 : B1 V (Proc.devRef .tc main_v1) = val_main_v1 (F := F) (V (Proc.devRef .tc main_arg1)) := by
  unfold B1
  after_results_simp <;> rfl
theorem B1_v3 : B1 V (Proc.devRef .tc main_v3) = val_main_v3 (F := F) (V (Proc.devRef .tc main_arg1)) := by
  unfold B1
  after_results_simp <;> rfl
theorem B1_v5 : B1 V (Proc.devRef .tc main_v5) = val_main_v5 (F := F) (V (Proc.devRef .tc main_arg1)) := by
  unfold B1
  after_results_simp <;> rfl
theorem B1_v6 : B1 V (Proc.devRef .tc main_v6) = val_main_v6 (F := F) (V (Proc.devRef .tc main_arg1)) := by
  unfold B1
  after_results_simp <;> rfl
set_option maxHeartbeats 4000000 in
theorem B1_v29 : B1 V (Proc.devRef .tc main_v29) = val_main_v29 (F := F) (V (Proc.devRef .tc main_arg1)) := by
  unfold B1
  after_results_simp <;> rfl
theorem B1_arg0 : B1 V (Proc.devRef .tc main_arg0) = V (Proc.devRef .tc main_arg0) := by
  unfold B1
  after_results_simp
theorem B1_arg2 : B1 V (Proc.devRef .tc main_arg2) = V (Proc.devRef .tc main_arg2) := by
  unfold B1
  after_results_simp
theorem B1_arg3 : B1 V (Proc.devRef .tc main_arg3) = V (Proc.devRef .tc main_arg3) := by
  unfold B1
  after_results_simp
theorem B1_arg4 : B1 V (Proc.devRef .tc main_arg4) = V (Proc.devRef .tc main_arg4) := by
  unfold B1
  after_results_simp
theorem B1_arg5 : B1 V (Proc.devRef .tc main_arg5) = V (Proc.devRef .tc main_arg5) := by
  unfold B1
  after_results_simp
theorem B1_arg6 : B1 V (Proc.devRef .tc main_arg6) = V (Proc.devRef .tc main_arg6) := by
  unfold B1
  after_results_simp
theorem B1_arg7 : B1 V (Proc.devRef .tc main_arg7) = V (Proc.devRef .tc main_arg7) := by
  unfold B1
  after_results_simp
theorem B1_arg8 : B1 V (Proc.devRef .tc main_arg8) = V (Proc.devRef .tc main_arg8) := by
  unfold B1
  after_results_simp
theorem B1_arg9 : B1 V (Proc.devRef .tc main_arg9) = V (Proc.devRef .tc main_arg9) := by
  unfold B1
  after_results_simp

/-! ### After the first node transform -/

theorem B2_v30 : B2 V (Proc.devRef .tc main_v30) = val_main_v30 (F := F) (V (Proc.devRef .tc main_arg0)) (V (Proc.devRef .tc main_arg2)) := by
  unfold B2
  after_results_simp
  rw [B1_arg0, B1_arg2]
  rfl
theorem B2_v1 : B2 V (Proc.devRef .tc main_v1) = B1 V (Proc.devRef .tc main_v1) := by
  unfold B2
  after_results_simp
theorem B2_v3 : B2 V (Proc.devRef .tc main_v3) = B1 V (Proc.devRef .tc main_v3) := by
  unfold B2
  after_results_simp
theorem B2_v5 : B2 V (Proc.devRef .tc main_v5) = B1 V (Proc.devRef .tc main_v5) := by
  unfold B2
  after_results_simp
theorem B2_v6 : B2 V (Proc.devRef .tc main_v6) = B1 V (Proc.devRef .tc main_v6) := by
  unfold B2
  after_results_simp
theorem B2_v29 : B2 V (Proc.devRef .tc main_v29) = B1 V (Proc.devRef .tc main_v29) := by
  unfold B2
  after_results_simp
theorem B2_arg3 : B2 V (Proc.devRef .tc main_arg3) = V (Proc.devRef .tc main_arg3) := by
  unfold B2
  after_results_simp <;> exact B1_arg3 V
theorem B2_arg4 : B2 V (Proc.devRef .tc main_arg4) = V (Proc.devRef .tc main_arg4) := by
  unfold B2
  after_results_simp <;> exact B1_arg4 V
theorem B2_arg5 : B2 V (Proc.devRef .tc main_arg5) = V (Proc.devRef .tc main_arg5) := by
  unfold B2
  after_results_simp <;> exact B1_arg5 V
theorem B2_arg6 : B2 V (Proc.devRef .tc main_arg6) = V (Proc.devRef .tc main_arg6) := by
  unfold B2
  after_results_simp <;> exact B1_arg6 V
theorem B2_arg7 : B2 V (Proc.devRef .tc main_arg7) = V (Proc.devRef .tc main_arg7) := by
  unfold B2
  after_results_simp <;> exact B1_arg7 V
theorem B2_arg8 : B2 V (Proc.devRef .tc main_arg8) = V (Proc.devRef .tc main_arg8) := by
  unfold B2
  after_results_simp <;> exact B1_arg8 V
theorem B2_arg9 : B2 V (Proc.devRef .tc main_arg9) = V (Proc.devRef .tc main_arg9) := by
  unfold B2
  after_results_simp <;> exact B1_arg9 V

/-! ### After the first layer -/

set_option maxHeartbeats 4000000 in
theorem B3_v47 : B3 V (Proc.devRef .tc main_v47) = val_main_v47 (F := F) (V (Proc.devRef .tc main_arg0)) (V (Proc.devRef .tc main_arg1)) (V (Proc.devRef .tc main_arg2)) (V (Proc.devRef .tc main_arg3)) := by
  unfold B3
  after_results_simp
  rw [B2_v30, B2_v5, B2_v6, B2_v29, B1_v5, B1_v6, B1_v29, B2_arg3]
  rfl
theorem B3_v1 : B3 V (Proc.devRef .tc main_v1) = B1 V (Proc.devRef .tc main_v1) := by
  unfold B3
  after_results_simp <;> exact B2_v1 V
theorem B3_v3 : B3 V (Proc.devRef .tc main_v3) = B1 V (Proc.devRef .tc main_v3) := by
  unfold B3
  after_results_simp <;> exact B2_v3 V
theorem B3_v5 : B3 V (Proc.devRef .tc main_v5) = B1 V (Proc.devRef .tc main_v5) := by
  unfold B3
  after_results_simp <;> exact B2_v5 V
theorem B3_v6 : B3 V (Proc.devRef .tc main_v6) = B1 V (Proc.devRef .tc main_v6) := by
  unfold B3
  after_results_simp <;> exact B2_v6 V
theorem B3_v29 : B3 V (Proc.devRef .tc main_v29) = B1 V (Proc.devRef .tc main_v29) := by
  unfold B3
  after_results_simp <;> exact B2_v29 V
theorem B3_arg4 : B3 V (Proc.devRef .tc main_arg4) = V (Proc.devRef .tc main_arg4) := by
  unfold B3
  after_results_simp <;> exact B2_arg4 V
theorem B3_arg5 : B3 V (Proc.devRef .tc main_arg5) = V (Proc.devRef .tc main_arg5) := by
  unfold B3
  after_results_simp <;> exact B2_arg5 V
theorem B3_arg6 : B3 V (Proc.devRef .tc main_arg6) = V (Proc.devRef .tc main_arg6) := by
  unfold B3
  after_results_simp <;> exact B2_arg6 V
theorem B3_arg7 : B3 V (Proc.devRef .tc main_arg7) = V (Proc.devRef .tc main_arg7) := by
  unfold B3
  after_results_simp <;> exact B2_arg7 V
theorem B3_arg8 : B3 V (Proc.devRef .tc main_arg8) = V (Proc.devRef .tc main_arg8) := by
  unfold B3
  after_results_simp <;> exact B2_arg8 V
theorem B3_arg9 : B3 V (Proc.devRef .tc main_arg9) = V (Proc.devRef .tc main_arg9) := by
  unfold B3
  after_results_simp <;> exact B2_arg9 V

/-! ### After the second node transform -/

theorem B4_v48 : B4 V (Proc.devRef .tc main_v48) = val_main_v48 (F := F) (V (Proc.devRef .tc main_arg0)) (V (Proc.devRef .tc main_arg1)) (V (Proc.devRef .tc main_arg2)) (V (Proc.devRef .tc main_arg3)) (V (Proc.devRef .tc main_arg4)) := by
  unfold B4
  after_results_simp
  rw [B3_v47, B3_arg4]
  rfl
theorem B4_v1 : B4 V (Proc.devRef .tc main_v1) = B1 V (Proc.devRef .tc main_v1) := by
  unfold B4
  after_results_simp <;> exact B3_v1 V
theorem B4_v3 : B4 V (Proc.devRef .tc main_v3) = B1 V (Proc.devRef .tc main_v3) := by
  unfold B4
  after_results_simp <;> exact B3_v3 V
theorem B4_v5 : B4 V (Proc.devRef .tc main_v5) = B1 V (Proc.devRef .tc main_v5) := by
  unfold B4
  after_results_simp <;> exact B3_v5 V
theorem B4_v6 : B4 V (Proc.devRef .tc main_v6) = B1 V (Proc.devRef .tc main_v6) := by
  unfold B4
  after_results_simp <;> exact B3_v6 V
theorem B4_v29 : B4 V (Proc.devRef .tc main_v29) = B1 V (Proc.devRef .tc main_v29) := by
  unfold B4
  after_results_simp <;> exact B3_v29 V
theorem B4_arg5 : B4 V (Proc.devRef .tc main_arg5) = V (Proc.devRef .tc main_arg5) := by
  unfold B4
  after_results_simp <;> exact B3_arg5 V
theorem B4_arg6 : B4 V (Proc.devRef .tc main_arg6) = V (Proc.devRef .tc main_arg6) := by
  unfold B4
  after_results_simp <;> exact B3_arg6 V
theorem B4_arg7 : B4 V (Proc.devRef .tc main_arg7) = V (Proc.devRef .tc main_arg7) := by
  unfold B4
  after_results_simp <;> exact B3_arg7 V
theorem B4_arg8 : B4 V (Proc.devRef .tc main_arg8) = V (Proc.devRef .tc main_arg8) := by
  unfold B4
  after_results_simp <;> exact B3_arg8 V
theorem B4_arg9 : B4 V (Proc.devRef .tc main_arg9) = V (Proc.devRef .tc main_arg9) := by
  unfold B4
  after_results_simp <;> exact B3_arg9 V

/-! ### After the second layer and the edge features -/

set_option maxHeartbeats 16000000 in
theorem B5_v80 : B5 V (Proc.devRef .tc main_v80) = val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  unfold B5
  after_results
  rw [B4_v48, B4_v1, B4_v3, B4_v5, B4_v6, B4_v29, B1_v1, B1_v3, B1_v5, B1_v6, B1_v29, B4_arg5]
  rfl
theorem B5_arg6 : B5 V (Proc.devRef .tc main_arg6) = V (Proc.devRef .tc main_arg6) := by
  unfold B5
  after_results_simp <;> exact B4_arg6 V
theorem B5_arg7 : B5 V (Proc.devRef .tc main_arg7) = V (Proc.devRef .tc main_arg7) := by
  unfold B5
  after_results_simp <;> exact B4_arg7 V
theorem B5_arg8 : B5 V (Proc.devRef .tc main_arg8) = V (Proc.devRef .tc main_arg8) := by
  unfold B5
  after_results_simp <;> exact B4_arg8 V
theorem B5_arg9 : B5 V (Proc.devRef .tc main_arg9) = V (Proc.devRef .tc main_arg9) := by
  unfold B5
  after_results_simp <;> exact B4_arg9 V

/-! ### At the end of the line -/

set_option maxHeartbeats 4000000 in
/-- The result buffer ends at the last stage function of the launch arguments. -/
theorem B6_v90 : B6 V (Proc.devRef .tc main_v90) = val_main_v90 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  unfold B6
  after_results_simp
  rw [B5_v80, B5_arg6, B5_arg7, B5_arg8, B5_arg9]
  rfl

/-! ## The run -/

set_option maxRecDepth 8192 in
set_option maxHeartbeats 4000000 in
/-- On every device, from any memory with zero counters, every weakly fair execution of the reference terminates
    with the result buffer at the last stage function of the launch arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90) = val_main_v90 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v90).trans ((congrFun (after_ops (launchContents m c)) _).trans (B6_v90 (launchContents m c))),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.RunStages

end
-- ==== Proof.HostStages.lean ====
/-
  The host side of the kernel's program, boundary by boundary.

  Between its three kernel regions the program applies, to the same buffers, the very operations the reference
  applies: the edge list split into sources and targets and extended by the self loops, the degree by a
  scatter-add of ones, its inverse square root where positive, the per-edge weight as a product of two gathers,
  then per layer a gather of transformed rows, the weighting, a scatter-add into the targets, the bias and the
  positive part; last the two gathers of node rows laid side by side. Each buffer a later region or stretch reads is
  named here, at each boundary of the run, as the reference's own stage function of the launch arguments, given the
  same for the region outputs the stretch reads. A buffer no operation of a stretch writes is carried across it, and a
  region changes only its own output array.
-/
import proofs.«146199_j7834020348027_1_alg».proof.Proof.Gen.KernelIdeal.Frame
import proofs.«146199_j7834020348027_1_alg».proof.Proof.RefReadP
import Idealize.ShloMosaic.Lib.StableHlo.Run

set_option maxRecDepth 16384

noncomputable section

namespace Cert.KernelIdeal.HostStages

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

variable (m : (ℓ : Loc nD τ sig) → Buf (Elt F) ℓ) (ρ : Dev nD → PrngReg)

/-! ## Before the first region: the graph's index lists and the edge weights -/

/-- The sources of the edges. -/
theorem W3_v1 (c : Dev nD) : W3 m ρ c (Proc.devRef .tc main_v1) = val_main_v1 (F := F) (m ((c : Thread nD τ).loc main_arg1)) := by
  show StableHlo.after hostOps0_2 (StableHlo.after hostOps0_1 (StableHlo.after hostOps0 (W0 m ρ c))) (Proc.devRef .tc main_v1) = _
  after_results_simp <;> rfl

/-- The targets of the edges. -/
theorem W3_v3 (c : Dev nD) : W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  after_results_simp <;> rfl

/-- The sources followed by the self loops. -/
theorem W3_v5 (c : Dev nD) : W3 m ρ c (Proc.devRef .tc main_v5) = val_main_v5 (F := F) (m ((c : Thread nD τ).loc main_arg1)) := by
  show StableHlo.after hostOps0_2 (StableHlo.after hostOps0_1 (StableHlo.after hostOps0 (W0 m ρ c))) (Proc.devRef .tc main_v5) = _
  after_results_simp <;> rfl

/-- The targets followed by the self loops. -/
theorem W3_v6 (c : Dev nD) : W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  after_results_simp <;> rfl

set_option maxHeartbeats 4000000 in
/-- The weight of every edge and self loop: the product of its two end points' inverse root degrees. -/
theorem W3_v29 (c : Dev nD) : W3 m ρ c (Proc.devRef .tc main_v29) = val_main_v29 (F := F) (m ((c : Thread nD τ).loc main_arg1)) := by
  show StableHlo.after hostOps0_2 (StableHlo.after hostOps0_1 (StableHlo.after hostOps0 (W0 m ρ c))) (Proc.devRef .tc main_v29) = _
  after_results_simp <;> rfl

/-- No operation before the first region writes an argument. -/
theorem W3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl
theorem W3_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl
theorem W3_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl
theorem W3_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl
theorem W3_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl
theorem W3_arg6 (c : Dev nD) : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl
theorem W3_arg7 (c : Dev nD) : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp <;> rfl
theorem W3_arg8 (c : Dev nD) : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results_simp <;> rfl
theorem W3_arg9 (c : Dev nD) : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results_simp <;> rfl

/-! ## After the first region -/

/-- The first region changes only its output array. -/
theorem W4_v1 (c : Dev nD) : W4 m ρ c (Proc.devRef .tc main_v1) = val_main_v1 (F := F) (m ((c : Thread nD τ).loc main_arg1)) := (W4_of_ne m ρ c main_v1 (by decide)).trans (W3_v1 m ρ c)
theorem W4_v3 (c : Dev nD) : W4 m ρ c (Proc.devRef .tc main_v3) = val_main_v3 (F := F) (m ((c : Thread nD τ).loc main_arg1)) := (W4_of_ne m ρ c main_v3 (by decide)).trans (W3_v3 m ρ c)
theorem W4_v5 (c : Dev nD) : W4 m ρ c (Proc.devRef .tc main_v5) = val_main_v5 (F := F) (m ((c : Thread nD τ).loc main_arg1)) := (W4_of_ne m ρ c main_v5 (by decide)).trans (W3_v5 m ρ c)
theorem W4_v6 (c : Dev nD) : W4 m ρ c (Proc.devRef .tc main_v6) = val_main_v6 (F := F) (m ((c : Thread nD τ).loc main_arg1)) := (W4_of_ne m ρ c main_v6 (by decide)).trans (W3_v6 m ρ c)
theorem W4_v29 (c : Dev nD) : W4 m ρ c (Proc.devRef .tc main_v29) = val_main_v29 (F := F) (m ((c : Thread nD τ).loc main_arg1)) := (W4_of_ne m ρ c main_v29 (by decide)).trans (W3_v29 m ρ c)
theorem W4_arg3 (c : Dev nD) : W4 m ρ c (Proc.devRef .tc main_arg3) = (m ((c : Thread nD τ).loc main_arg3)) := (W4_of_ne m ρ c main_arg3 (by decide)).trans (W3_arg3 m ρ c)
theorem W4_arg4 (c : Dev nD) : W4 m ρ c (Proc.devRef .tc main_arg4) = (m ((c : Thread nD τ).loc main_arg4)) := (W4_of_ne m ρ c main_arg4 (by decide)).trans (W3_arg4 m ρ c)
theorem W4_arg5 (c : Dev nD) : W4 m ρ c (Proc.devRef .tc main_arg5) = (m ((c : Thread nD τ).loc main_arg5)) := (W4_of_ne m ρ c main_arg5 (by decide)).trans (W3_arg5 m ρ c)
theorem W4_arg6 (c : Dev nD) : W4 m ρ c (Proc.devRef .tc main_arg6) = (m ((c : Thread nD τ).loc main_arg6)) := (W4_of_ne m ρ c main_arg6 (by decide)).trans (W3_arg6 m ρ c)
theorem W4_arg7 (c : Dev nD) : W4 m ρ c (Proc.devRef .tc main_arg7) = (m ((c : Thread nD τ).loc main_arg7)) := (W4_of_ne m ρ c main_arg7 (by decide)).trans (W3_arg7 m ρ c)
theorem W4_arg8 (c : Dev nD) : W4 m ρ c (Proc.devRef .tc main_arg8) = (m ((c : Thread nD τ).loc main_arg8)) := (W4_of_ne m ρ c main_arg8 (by decide)).trans (W3_arg8 m ρ c)
theorem W4_arg9 (c : Dev nD) : W4 m ρ c (Proc.devRef .tc main_arg9) = (m ((c : Thread nD τ).loc main_arg9)) := (W4_of_ne m ρ c main_arg9 (by decide)).trans (W3_arg9 m ρ c)

/-! ## Before the second region: the first layer -/

set_option maxHeartbeats 4000000 in
/-- The first layer's output, given the first region's: gather by source, weight, scatter-add by target, bias, positive part. -/
theorem W6_v47 (c : Dev nD)
    (h30 : W4 m ρ c (Proc.devRef .tc main_v30) = val_main_v30 (F := F) (m ((c : Thread nD τ).loc main_arg0)) (m ((c : Thread nD τ).loc main_arg2))) :
    W6 m ρ c (Proc.devRef .tc main_v47) = val_main_v47 (F := F) (m ((c : Thread nD τ).loc main_arg0)) (m ((c : Thread nD τ).loc main_arg1)) (m ((c : Thread nD τ).loc main_arg2)) (m ((c : Thread nD τ).loc main_arg3)) := by
  show StableHlo.after hostOps1_1 (StableHlo.after hostOps1 (W4 m ρ c)) (Proc.devRef .tc main_v47) = _
  after_results_simp
  rw [h30, W4_v5, W4_v6, W4_v29, W4_arg3]
  rfl

theorem W6_v1 (c : Dev nD) : W6 m ρ c (Proc.devRef .tc main_v1) = val_main_v1 (F := F) (m ((c : Thread nD τ).loc main_arg1)) := by
  show StableHlo.after hostOps1_1 (StableHlo.after hostOps1 (W4 m ρ c)) (Proc.devRef .tc main_v1) = _
  after_results_simp <;> exact W4_v1 m ρ c
theorem W6_v3 (c : Dev nD) : W6 m ρ c (Proc.devRef .tc main_v3) = val_main_v3 (F := F) (m ((c : Thread nD τ).loc main_arg1)) := by
  show StableHlo.after hostOps1_1 (StableHlo.after hostOps1 (W4 m ρ c)) (Proc.devRef .tc main_v3) = _
  after_results_simp <;> exact W4_v3 m ρ c
theorem W6_v5 (c : Dev nD) : W6 m ρ c (Proc.devRef .tc main_v5) = val_main_v5 (F := F) (m ((c : Thread nD τ).loc main_arg1)) := by
  show StableHlo.after hostOps1_1 (StableHlo.after hostOps1 (W4 m ρ c)) (Proc.devRef .tc main_v5) = _
  after_results_simp <;> exact W4_v5 m ρ c
theorem W6_v6 (c : Dev nD) : W6 m ρ c (Proc.devRef .tc main_v6) = val_main_v6 (F := F) (m ((c : Thread nD τ).loc main_arg1)) := by
  show StableHlo.after hostOps1_1 (StableHlo.after hostOps1 (W4 m ρ c)) (Proc.devRef .tc main_v6) = _
  after_results_simp <;> exact W4_v6 m ρ c
theorem W6_v29 (c : Dev nD) : W6 m ρ c (Proc.devRef .tc main_v29) = val_main_v29 (F := F) (m ((c : Thread nD τ).loc main_arg1)) := by
  show StableHlo.after hostOps1_1 (StableHlo.after hostOps1 (W4 m ρ c)) (Proc.devRef .tc main_v29) = _
  after_results_simp <;> exact W4_v29 m ρ c
theorem W6_arg4 (c : Dev nD) : W6 m ρ c (Proc.devRef .tc main_arg4) = (m ((c : Thread nD τ).loc main_arg4)) := by
  show StableHlo.after hostOps1_1 (StableHlo.after hostOps1 (W4 m ρ c)) (Proc.devRef .tc main_arg4) = _
  after_results_simp <;> exact W4_arg4 m ρ c
theorem W6_arg5 (c : Dev nD) : W6 m ρ c (Proc.devRef .tc main_arg5) = (m ((c : Thread nD τ).loc main_arg5)) := by
  show StableHlo.after hostOps1_1 (StableHlo.after hostOps1 (W4 m ρ c)) (Proc.devRef .tc main_arg5) = _
  after_results_simp <;> exact W4_arg5 m ρ c
theorem W6_arg6 (c : Dev nD) : W6 m ρ c (Proc.devRef .tc main_arg6) = (m ((c : Thread nD τ).loc main_arg6)) := by
  show StableHlo.after hostOps1_1 (StableHlo.after hostOps1 (W4 m ρ c)) (Proc.devRef .tc main_arg6) = _
  after_results_simp <;> exact W4_arg6 m ρ c
theorem W6_arg7 (c : Dev nD) : W6 m ρ c (Proc.devRef .tc main_arg7) = (m ((c : Thread nD τ).loc main_arg7)) := by
  show StableHlo.after hostOps1_1 (StableHlo.after hostOps1 (W4 m ρ c)) (Proc.devRef .tc main_arg7) = _
  after_results_simp <;> exact W4_arg7 m ρ c
theorem W6_arg8 (c : Dev nD) : W6 m ρ c (Proc.devRef .tc main_arg8) = (m ((c : Thread nD τ).loc main_arg8)) := by
  show StableHlo.after hostOps1_1 (StableHlo.after hostOps1 (W4 m ρ c)) (Proc.devRef .tc main_arg8) = _
  after_results_simp <;> exact W4_arg8 m ρ c
theorem W6_arg9 (c : Dev nD) : W6 m ρ c (Proc.devRef .tc main_arg9) = (m ((c : Thread nD τ).loc main_arg9)) := by
  show StableHlo.after hostOps1_1 (StableHlo.after hostOps1 (W4 m ρ c)) (Proc.devRef .tc main_arg9) = _
  after_results_simp <;> exact W4_arg9 m ρ c

/-! ## After the second region -/

theorem W7_v1 (c : Dev nD) : W7 m ρ c (Proc.devRef .tc main_v1) = val_main_v1 (F := F) (m ((c : Thread nD τ).loc main_arg1)) := (W7_of_ne m ρ c main_v1 (by decide)).trans (W6_v1 m ρ c)
theorem W7_v3 (c : Dev nD) : W7 m ρ c (Proc.devRef .tc main_v3) = val_main_v3 (F := F) (m ((c : Thread nD τ).loc main_arg1)) := (W7_of_ne m ρ c main_v3 (by decide)).trans (W6_v3 m ρ c)
theorem W7_v5 (c : Dev nD) : W7 m ρ c (Proc.devRef .tc main_v5) = val_main_v5 (F := F) (m ((c : Thread nD τ).loc main_arg1)) := (W7_of_ne m ρ c main_v5 (by decide)).trans (W6_v5 m ρ c)
theorem W7_v6 (c : Dev nD) : W7 m ρ c (Proc.devRef .tc main_v6) = val_main_v6 (F := F) (m ((c : Thread nD τ).loc main_arg1)) := (W7_of_ne m ρ c main_v6 (by decide)).trans (W6_v6 m ρ c)
theorem W7_v29 (c : Dev nD) : W7 m ρ c (Proc.devRef .tc main_v29) = val_main_v29 (F := F) (m ((c : Thread nD τ).loc main_arg1)) := (W7_of_ne m ρ c main_v29 (by decide)).trans (W6_v29 m ρ c)
theorem W7_arg5 (c : Dev nD) : W7 m ρ c (Proc.devRef .tc main_arg5) = (m ((c : Thread nD τ).loc main_arg5)) := (W7_of_ne m ρ c main_arg5 (by decide)).trans (W6_arg5 m ρ c)
theorem W7_arg6 (c : Dev nD) : W7 m ρ c (Proc.devRef .tc main_arg6) = (m ((c : Thread nD τ).loc main_arg6)) := (W7_of_ne m ρ c main_arg6 (by decide)).trans (W6_arg6 m ρ c)
theorem W7_arg7 (c : Dev nD) : W7 m ρ c (Proc.devRef .tc main_arg7) = (m ((c : Thread nD τ).loc main_arg7)) := (W7_of_ne m ρ c main_arg7 (by decide)).trans (W6_arg7 m ρ c)
theorem W7_arg8 (c : Dev nD) : W7 m ρ c (Proc.devRef .tc main_arg8) = (m ((c : Thread nD τ).loc main_arg8)) := (W7_of_ne m ρ c main_arg8 (by decide)).trans (W6_arg8 m ρ c)
theorem W7_arg9 (c : Dev nD) : W7 m ρ c (Proc.devRef .tc main_arg9) = (m ((c : Thread nD τ).loc main_arg9)) := (W7_of_ne m ρ c main_arg9 (by decide)).trans (W6_arg9 m ρ c)

/-! ## Before the third region: the second layer and the edge features -/

set_option maxHeartbeats 16000000 in
/-- The edge features — the two end points' embeddings side by side — given the second region's output. -/
theorem W10_v80 (c : Dev nD)
    (h48 : W7 m ρ c (Proc.devRef .tc main_v48) = val_main_v48 (F := F) (m ((c : Thread nD τ).loc main_arg0)) (m ((c : Thread nD τ).loc main_arg1)) (m ((c : Thread nD τ).loc main_arg2)) (m ((c : Thread nD τ).loc main_arg3)) (m ((c : Thread nD τ).loc main_arg4))) :
    W10 m ρ c (Proc.devRef .tc main_v80) = val_main_v80 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2_2 (StableHlo.after hostOps2_1 (StableHlo.after hostOps2 (W7 m ρ c))) (Proc.devRef .tc main_v80) = _
  after_results
  rw [h48, W7_v1, W7_v3, W7_v5, W7_v6, W7_v29, W7_arg5]
  rfl

/-- The first scoring layer's bias as a row. -/
theorem W10_v81 (c : Dev nD) : W10 m ρ c (Proc.devRef .tc main_v81) = val_main_v82 (F := F) (m ((c : Thread nD τ).loc main_arg7)) := by
  show StableHlo.after hostOps2_2 (StableHlo.after hostOps2_1 (StableHlo.after hostOps2 (W7 m ρ c))) (Proc.devRef .tc main_v81) = _
  after_results_simp
  rw [W7_arg7]
  rfl

/-- The second scoring layer's bias as a one-entry matrix. -/
theorem W10_v82 (c : Dev nD) : W10 m ρ c (Proc.devRef .tc main_v82) = val_main_v87 (F := F) (m ((c : Thread nD τ).loc main_arg9)) := by
  show StableHlo.after hostOps2_2 (StableHlo.after hostOps2_1 (StableHlo.after hostOps2 (W7 m ρ c))) (Proc.devRef .tc main_v82) = _
  after_results_simp
  rw [W7_arg9]
  rfl

theorem W10_arg6 (c : Dev nD) : W10 m ρ c (Proc.devRef .tc main_arg6) = (m ((c : Thread nD τ).loc main_arg6)) := by
  show StableHlo.after hostOps2_2 (StableHlo.after hostOps2_1 (StableHlo.after hostOps2 (W7 m ρ c))) (Proc.devRef .tc main_arg6) = _
  after_results_simp <;> exact W7_arg6 m ρ c
theorem W10_arg8 (c : Dev nD) : W10 m ρ c (Proc.devRef .tc main_arg8) = (m ((c : Thread nD τ).loc main_arg8)) := by
  show StableHlo.after hostOps2_2 (StableHlo.after hostOps2_1 (StableHlo.after hostOps2 (W7 m ρ c))) (Proc.devRef .tc main_arg8) = _
  after_results_simp <;> exact W7_arg8 m ρ c

end Cert.KernelIdeal.HostStages

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.NodeTransform0.lean ====
/-
  The first node transform, x · W1, as the first kernel region leaves it.

  The region walks the 100000 rows of x in ten blocks of 10000 rows; at block t it multiplies rows
  10000·t … 10000·t + 9999 of x by the whole 4 × 64 matrix W1 (the two casts to a shorter float format are the
  identity on the extended reals, and the product accumulates into zero) and writes the 10000 × 64 block of products
  back to the same rows of the result. Row P of the result is therefore Σ_k x[P, k] · W1[k, q] for every P: the ten
  blocks tile the rows, and the array the region leaves is the host's plain matrix product of the two arrays it found.

  In order: the body's payload at an entry (p, q) of a block is Σ_k xb[p, k] · wb[k, q]; entry (p, k) of block t of x is
  x[10000·t + p, k], every block of W1 is W1 itself, and entry (p, q) of block t of the result sits at (10000·t + p, q);
  so what point t writes back is block t of the product array; row r lies in the block of point r / 10000, so the
  blocks cover the array, which therefore ends holding the product.
-/
import proofs.«146199_j7834020348027_1_alg».proof.Proof.Gen.KernelIdeal.Frame
import proofs.«146199_j7834020348027_1_alg».proof.Proof.LibPlainDot
import proofs.«146199_j7834020348027_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.NodeTransform0

open Cert.KernelIdeal Cert.KernelIdeal.Gen Idealize.ShloMosaic Idealize.ShloMosaic.TcCoe Idealize.SL.Sem Idealize.ShloMosaic.ValueIdx
open Idealize.ShloMosaic.Pipeline (Dat Cfg Window)

/- The buffer contents when the region is entered: a parameter. -/
variable (V : (c : Dev nD) → (b : Ref sig .tc) → Buf (Elt Ideal) ((c : Thread nD τ).loc b))

/-- A whole-buffer access starts at the origin. -/
theorem origin2 : (![0, 0] : Fin 2 → Nat) = fun _ => 0 := funext fun a => by fin_cases a <;> rfl

/-- The body's product has the plain dimension numbers of a 10000 × 4 by 4 × 64 product. -/
theorem dims_plain : dot_S10000x4_S4x64_S10000x64_1_0_0_1_n_n = DotDims.plain 10000 4 64 := rfl

/-- The body's payload at entry (p, q): row p of the block of x against column q of W1. -/
theorem pay_apply (xb : Vec Ideal S10000x4 .f32) (wb : Vec Ideal S4x64 .f32) (p : Fin 10000) (q : Fin 64) :
    k0_pay1 (F := Ideal) xb wb (ix2 p q) = ∑ k : Fin 4, xb (ix2 p k) * wb (ix2 k q) := by
  unfold k0_pay1
  rw [dims_plain]
  exact Cert.Lib.PlainDot.matmul_zero_apply none _ _ p q

/-- The blocks' index maps over the grid: at point t the blocks of x and of the result are block t of the rows, and
    the block of W1 is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The array the region leaves: the plain product of the two arrays it found. -/
abbrev prod (c : Dev nD) : FVec Ideal ⟨2, ![100000, 64]⟩ .f32 :=
  Host.dotGeneral (F := Ideal) (φ₁ := .f32) (φ₂ := .f32) (DotDims.plain 100000 4 64) none (V c main_arg0) (V c main_arg2)

/-- Entry (p, k) of point t's block of x is entry (10000·t + p, k) of x. -/
theorem xblk_apply (c : Dev nD) (t : Fin cfg0.N) (p : Fin 10000) (k : Fin 4) (hP : 10000 * t.val + p.val < 100000) :
    (iblk0 (F := Ideal) V c 0 t : Vec Ideal S10000x4 .f32) (ix2 p k)
      = (V c main_arg0 : S100000x4.Idx → EReal) (ix2 ⟨10000 * t.val + p.val, hP⟩ k) := by
  obtain ⟨e00, e01, -, -, -, -, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 10000 + 1 * p.val = 10000 * t.val + p.val; rw [e00]; omega
  | ⟨1, _⟩ => show win0_0.index t (1 : Fin 2) * 4 + 1 * k.val = k.val; rw [e01]; omega

/-- Every point's block of W1 is the whole matrix. -/
theorem wblk_apply (c : Dev nD) (t : Fin cfg0.N) (k : Fin 4) (q : Fin 64) :
    (iblk0 (F := Ideal) V c 1 t : Vec Ideal S4x64 .f32) (ix2 k q) = (V c main_arg2 : S4x64.Idx → EReal) (ix2 k q) := by
  obtain ⟨-, -, e10, e11, -, -, -⟩ := idx_facts t
  show V c main_arg2 (((cfg0.win 1).blk t).view.emb (ix2 k q)) = _
  refine congrArg (V c main_arg2) (funext fun a => Fin.ext ?_)
  match a with
  | ⟨0, _⟩ => show win0_1.index t (0 : Fin 2) * 4 + 1 * k.val = k.val; rw [e10]; omega
  | ⟨1, _⟩ => show win0_1.index t (1 : Fin 2) * 64 + 1 * q.val = q.val; rw [e11]; omega

/-- Entry (p, q) of point t's block of the result sits at entry (10000·t + p, q) of the result array. -/
theorem oblk_emb (t : Fin cfg0.N) (p : Fin 10000) (q : Fin 64) (hP : 10000 * t.val + p.val < 100000) :
    ((cfg0.win 2).blk t).view.emb (ix2 p q) = ix2 (⟨10000 * t.val + p.val, hP⟩ : Fin 100000) q := by
  obtain ⟨-, -, -, -, e20, e21, -⟩ := idx_facts t
  funext a; apply Fin.ext
  match a with
  | ⟨0, _⟩ => show win0_2.index t (0 : Fin 2) * 10000 + 1 * p.val = 10000 * t.val + p.val; rw [e20]; omega
  | ⟨1, _⟩ => show win0_2.index t (1 : Fin 2) * 64 + 1 * q.val = q.val; rw [e21]; omega

/-- What point t writes back is block t of the product of the two arrays. -/
theorem flushed_eq (c : Dev nD) (t : Fin cfg0.N) :
    (dat0 (F := Ideal) V c).flushed 2 t = ((cfg0.win 2).blk t).view.read (Elt Ideal) (prod V c) := by
  show (cfg0.win 2).cut (grid0.coords t) ((dat0 (F := Ideal) V c).after 2 t) = _
  rw [after0_2]
  unfold out0_2
  rw [View.canon_unit_zero origin2]
  simp only [View.ld_unit_zero (S := S10000x4) origin2, View.ld_unit_zero (S := S4x64) origin2]
  have ht : t.val < 10 := (idx_facts t).2.2.2.2.2.2
  funext y
  obtain ⟨p, q, rfl⟩ : ∃ (p : Fin 10000) (q : Fin 64), y = ix2 p q := ⟨y 0, y 1, eq_ix2 (n0 := 10000) (n1 := 64) y⟩
  have hP : 10000 * t.val + p.val < 100000 := by have := p.isLt; omega
  show k0_pay1 (F := Ideal) (iblk0 V c 0 t) (iblk0 V c 1 t) (ix2 p q) = prod V c (((cfg0.win 2).blk t).view.emb (ix2 p q))
  rw [oblk_emb t p q hP]
  refine (pay_apply _ _ p q).trans ((Finset.sum_congr rfl fun k _ => ?_).trans
    (Cert.Lib.PlainDot.dotGeneral_apply none .single _ _ _ q).symm)
  exact congrArg₂ (· * ·) (xblk_apply V c t p k hP) (wblk_apply V c t k q)
/-- An index of the result array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten blocks tile the rows: row r lies in the block of point r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := by decide
  let t : Fin cfg0.N := ⟨(i 0).val / 10000, by omega⟩
  obtain ⟨-, -, -, -, e20, e21, -⟩ := idx_facts t
  have e20' : win0_2.index t (0 : Fin 2) = (i 0).val / 10000 := e20
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region, its output array is the plain product of the two input arrays as the region found them. -/
theorem region0_out (c : Dev nD) :
    (dat0 (F := Ideal) V c).arrAt 2 cfg0.N
      = Host.dotGeneral (F := Ideal) (φ₁ := .f32) (φ₂ := .f32) (DotDims.plain 100000 4 64) none (V c main_arg0) (V c main_arg2) :=
  (dat0 (F := Ideal) V c).arrAt_eq_of_cover 2 (prod V c) (fun t _ => flushed_eq V c t) cover

end Cert.KernelIdeal.NodeTransform0

end
-- ==== Proof.NodeTransform1.lean ====
/-
  The second node transform, h · W2, as the second kernel region leaves it.

  The region walks the 100000 rows of h (the first layer's output, 64 features) in ten blocks of 10000 rows; at
  block t it multiplies rows 10000·t … 10000·t + 9999 of h by the whole 64 × 64 matrix W2 (casts to a shorter float
  format are the identity on the extended reals; the product accumulates into zero) and writes the block of products
  back to the same rows. The ten blocks tile the rows, so the array the region leaves is the host's plain matrix
  product of the two arrays it found.

  In order: the body's payload at an entry (p, q) of a block is Σ_k hb[p, k] · wb[k, q] (the cast of the block to its
  own shape is the identity); entry (p, k) of block t of h is h[10000·t + p, k], every block of W2 is W2 itself, and
  entry (p, q) of block t of the result sits at (10000·t + p, q); so what point t writes back is block t of the
  product array; row r lies in the block of point r / 10000, so the blocks cover the array, which therefore ends
  holding the product.
-/
import proofs.«146199_j7834020348027_1_alg».proof.Proof.Gen.KernelIdeal.Frame
import proofs.«146199_j7834020348027_1_alg».proof.Proof.LibPlainDot
import proofs.«146199_j7834020348027_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.NodeTransform1

open Cert.KernelIdeal Cert.KernelIdeal.Gen Idealize.ShloMosaic Idealize.ShloMosaic.TcCoe Idealize.SL.Sem Idealize.ShloMosaic.ValueIdx
open Idealize.ShloMosaic.Pipeline (Dat Cfg Window)

/- The buffer contents when the region is entered: a parameter. -/
variable (V : (c : Dev nD) → (b : Ref sig .tc) → Buf (Elt Ideal) ((c : Thread nD τ).loc b))

/-- A whole-buffer access starts at the origin. -/
theorem origin2 : (![0, 0] : Fin 2 → Nat) = fun _ => 0 := funext fun a => by fin_cases a <;> rfl

/-- The body's product has the plain dimension numbers of a 10000 × 64 by 64 × 64 product. -/
theorem dims_plain : dot_S10000x64_S64x64_S10000x64_1_0_0_1_n_n = DotDims.plain 10000 64 64 := rfl

/-- The body's payload at entry (p, q): row p of the block of h against column q of W2 (the cast of the block to its
    own shape changes nothing). -/
theorem pay_apply (hb : Vec Ideal S10000x64 .f32) (wb : Vec Ideal S64x64 .f32) (p : Fin 10000) (q : Fin 64) :
    k1_pay1 (F := Ideal) hb wb (ix2 p q) = ∑ k : Fin 64, hb (ix2 p k) * wb (ix2 k q) := by
  unfold k1_pay1
  rw [dims_plain, shapeCast_self]
  exact Cert.Lib.PlainDot.matmul_zero_apply none _ _ p q

/-- The blocks' index maps over the grid: at point t the blocks of h and of the result are block t of the rows, and
    the block of W2 is the whole matrix. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- The array the region leaves: the plain product of the two arrays it found. -/
abbrev prod (c : Dev nD) : FVec Ideal ⟨2, ![100000, 64]⟩ .f32 :=
  Host.dotGeneral (F := Ideal) (φ₁ := .f32) (φ₂ := .f32) (DotDims.plain 100000 64 64) none (V c main_v47) (V c main_arg4)

/-- Entry (p, k) of point t's block of h is entry (10000·t + p, k) of h. -/
theorem hblk_apply (c : Dev nD) (t : Fin cfg1.N) (p : Fin 10000) (k : Fin 64) (hP : 10000 * t.val + p.val < 100000) :
    (iblk1 (F := Ideal) V c 0 t : Vec Ideal S10000x64 .f32) (ix2 p k)
      = (V c main_v47 : S100000x64.Idx → EReal) (ix2 ⟨10000 * t.val + p.val, hP⟩ k) := by
  obtain ⟨e00, e01, -, -, -, -, -⟩ := idx_facts t
  show V c main_v47 (((cfg1.win 0).blk t).view.emb (ix2 p k)) = _
  refine congrArg (V c main_v47) (funext fun a => Fin.ext ?_)
  match a with
  | ⟨0, _⟩ => show win1_0.index t (0 : Fin 2) * 10000 + 1 * p.val = 10000 * t.val + p.val; rw [e00]; omega
  | ⟨1, _⟩ => show win1_0.index t (1 : Fin 2) * 64 + 1 * k.val = k.val; rw [e01]; omega

/-- Every point's block of W2 is the whole matrix. -/
theorem wblk_apply (c : Dev nD) (t : Fin cfg1.N) (k : Fin 64) (q : Fin 64) :
    (iblk1 (F := Ideal) V c 1 t : Vec Ideal S64x64 .f32) (ix2 k q) = (V c main_arg4 : S64x64.Idx → EReal) (ix2 k q) := by
  obtain ⟨-, -, e10, e11, -, -, -⟩ := idx_facts t
  show V c main_arg4 (((cfg1.win 1).blk t).view.emb (ix2 k q)) = _
  refine congrArg (V c main_arg4) (funext fun a => Fin.ext ?_)
  match a with
  | ⟨0, _⟩ => show win1_1.index t (0 : Fin 2) * 64 + 1 * k.val = k.val; rw [e10]; omega
  | ⟨1, _⟩ => show win1_1.index t (1 : Fin 2) * 64 + 1 * q.val = q.val; rw [e11]; omega

/-- Entry (p, q) of point t's block of the result sits at entry (10000·t + p, q) of the result array. -/
theorem oblk_emb (t : Fin cfg1.N) (p : Fin 10000) (q : Fin 64) (hP : 10000 * t.val + p.val < 100000) :
    ((cfg1.win 2).blk t).view.emb (ix2 p q) = ix2 (⟨10000 * t.val + p.val, hP⟩ : Fin 100000) q := by
  obtain ⟨-, -, -, -, e20, e21, -⟩ := idx_facts t
  funext a; apply Fin.ext
  match a with
  | ⟨0, _⟩ => show win1_2.index t (0 : Fin 2) * 10000 + 1 * p.val = 10000 * t.val + p.val; rw [e20]; omega
  | ⟨1, _⟩ => show win1_2.index t (1 : Fin 2) * 64 + 1 * q.val = q.val; rw [e21]; omega

/-- What point t writes back is block t of the product of the two arrays. -/
theorem flushed_eq (c : Dev nD) (t : Fin cfg1.N) :
    (dat1 (F := Ideal) V c).flushed 2 t = ((cfg1.win 2).blk t).view.read (Elt Ideal) (prod V c) := by
  show (cfg1.win 2).cut (grid1.coords t) ((dat1 (F := Ideal) V c).after 2 t) = _
  rw [after1_2]
  unfold out1_2
  rw [View.canon_unit_zero origin2]
  simp only [View.ld_unit_zero (S := S10000x64) origin2, View.ld_unit_zero (S := S64x64) origin2]
  have ht : t.val < 10 := (idx_facts t).2.2.2.2.2.2
  funext y
  obtain ⟨p, q, rfl⟩ : ∃ (p : Fin 10000) (q : Fin 64), y = ix2 p q := ⟨y 0, y 1, eq_ix2 (n0 := 10000) (n1 := 64) y⟩
  have hP : 10000 * t.val + p.val < 100000 := by have := p.isLt; omega
  show k1_pay1 (F := Ideal) (iblk1 V c 0 t) (iblk1 V c 1 t) (ix2 p q) = prod V c (((cfg1.win 2).blk t).view.emb (ix2 p q))
  rw [oblk_emb t p q hP]
  refine (pay_apply _ _ p q).trans ((Finset.sum_congr rfl fun k _ => ?_).trans
    (Cert.Lib.PlainDot.dotGeneral_apply none .single _ _ _ q).symm)
  exact congrArg₂ (· * ·) (hblk_apply V c t p k hP) (wblk_apply V c t k q)

/-- An index of the result array is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v48).slice (win1_2.rect t)).set ↔ _
  rw [View.set_slice_whole, Rect.mem_set_unit]
  exact Iff.rfl

/-- The ten blocks tile the rows: row r lies in the block of point r / 10000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := by decide
  let t : Fin cfg1.N := ⟨(i 0).val / 10000, by omega⟩
  obtain ⟨-, -, -, -, e20, e21, -⟩ := idx_facts t
  have e20' : win1_2.index t (0 : Fin 2) = (i 0).val / 10000 := e20
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region, its output array is the plain product of the two input arrays as the region found them. -/
theorem region1_out (c : Dev nD) :
    (dat1 (F := Ideal) V c).arrAt 2 cfg1.N
      = Host.dotGeneral (F := Ideal) (φ₁ := .f32) (φ₂ := .f32) (DotDims.plain 100000 64 64) none (V c main_v47) (V c main_arg4) :=
  (dat1 (F := Ideal) V c).arrAt_eq_of_cover 2 (prod V c) (fun t _ => flushed_eq V c t) cover

end Cert.KernelIdeal.NodeTransform1

end
-- ==== Proof.EdgeScore.lean ====
/-
  The edge score, relu(ef · A + a) · B + b, as the third kernel region leaves it.

  The region walks the 1600000 edge rows of ef (128 features: the two end points' embeddings side by side) in 250
  blocks of 6400 rows. At block t it forms, for each of its rows, the 64 hidden values Σ_j ef[P, j] · A[j, k] + a[k],
  takes their positive part, and contracts them with the 64 × 1 matrix B, adding b: one score per edge, written back
  to rows 6400·t … 6400·t + 6399 of the 1600000 × 1 result (the casts to a shorter float format are the identity on
  the extended reals; each product accumulates into zero; a and b reach the region as a 1 × 64 row and a 1 × 1
  entry, broadcast along the rows). The 250 blocks tile the rows, so the array the region leaves is, entry by entry,
  the host's composition of two plain matrix products, two row broadcasts and a maximum with zero, of the five arrays
  it found.

  The proof reads both sides at an entry. Entry (p, 0) of the body's result on a block eb is
  Σ_k max(Σ_j eb[p, j] · A[j, k] + a[0, k], 0) · B[k, 0] + b[0, 0], and entry (P, 0) of the host's composition is the
  same double sum over row P of ef: a plain matrix product at an entry is the sum of products over the contracted
  index, for the product into the zero accumulator and for the host's alike, and the zero of the maximum is one and
  the same word on both sides, never evaluated. Row p of the block of ef at point t is row 6400·t + p of ef, while
  A, a, B, b arrive whole; so what point t writes back is block t of the whole-array score, and row r of the result
  lies in the block of point r / 6400.
-/
import proofs.«146199_j7834020348027_1_alg».proof.Proof.Gen.KernelIdeal.Frame
import proofs.«146199_j7834020348027_1_alg».proof.Proof.LibPlainDot
import proofs.«146199_j7834020348027_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.EdgeScore

open Cert.KernelIdeal Cert.KernelIdeal.Gen Idealize.ShloMosaic Idealize.ShloMosaic.TcCoe Idealize.SL.Sem Idealize.ShloMosaic.ValueIdx
open Idealize.ShloMosaic.Pipeline (Dat Cfg Window)

/- The buffer contents when the region is entered: a parameter. -/
variable (V : (c : Dev nD) → (b : Ref sig .tc) → Buf (Elt Ideal) ((c : Thread nD τ).loc b))

/-! ## The body's arithmetic at an entry -/

/-- The staging buffers are read and written through the zero offsets. -/
theorem hz : (![0, 0] : Fin 2 → Nat) = fun _ => 0 := funext fun a => by fin_cases a <;> rfl

/-- The first product's dimension numbers are the plain ones of a 6400 × 128 by 128 × 64 product. -/
theorem d1 : dot_S6400x128_S128x64_S6400x64_1_0_0_1_n_n = DotDims.plain 6400 128 64 := rfl
/-- The second product's are those of a 6400 × 64 by 64 × 1 product. -/
theorem d2 : dot_S6400x64_S64x1_S6400x1_1_0_0_1_n_n = DotDims.plain 6400 64 1 := rfl

/-- The 1 × 64 row a, broadcast along the block's 6400 rows, reads a[0, k] at (p, k). -/
theorem row_bcast (a : Vec Ideal S1x64 .f32) (p : Fin 6400) (k : Fin 64) :
    broadcastTo S6400x64 a broadcasts_S1x64_S6400x64 (ix2 p k) = a (ix2 0 k) :=
  broadcastTo_apply a _ (ix2 p k) (ix2 0 k) (fun d => by match d with | ⟨0, _⟩ => rfl | ⟨1, _⟩ => rfl)

/-- The 1 × 1 entry b, broadcast along the block's rows, reads b[0, 0] everywhere. -/
theorem entry_bcast (b : Vec Ideal S1x1 .f32) (p : Fin 6400) (q : Fin 1) :
    broadcastTo S6400x1 b broadcasts_S1x1_S6400x1 (ix2 p q) = b (ix2 0 0) :=
  broadcastTo_apply b _ (ix2 p q) (ix2 0 0) (fun d => by match d with | ⟨0, _⟩ => rfl | ⟨1, _⟩ => rfl)

/-- Row p of a block: Σ_k max(Σ_j eb[p, j] · A[j, k] + a[0, k], 0) · B[k, q] + b[0, 0]. The casts of shape and of
    float format are the identity, and each product accumulates into zero, so it is the plain sum of products. -/
theorem pay_apply (eb : Vec Ideal S6400x128 .f32) (A : Vec Ideal S128x64 .f32) (a : Vec Ideal S1x64 .f32)
    (B : Vec Ideal S64x1 .f32) (b : Vec Ideal S1x1 .f32) (p : Fin 6400) (q : Fin 1) :
    k2_pay1 (F := Ideal) eb A a B b (ix2 p q)
      = (∑ k : Fin 64, max ((∑ j : Fin 128, eb (ix2 p j) * A (ix2 j k)) + a (ix2 0 k)) (Ideal.ofBits .f32 0x00000000#32) * B (ix2 k q))
        + b (ix2 0 0) := by
  unfold k2_pay1
  rw [addf_apply, d1, d2, shapeCast_self, shapeCast_self, shapeCast_self, entry_bcast]
  dsimp only [matmul]
  rw [Cert.Lib.PlainDot.matmul_zero_apply]
  congr 1
  refine Finset.sum_congr rfl fun k _ => ?_
  rw [truncf_apply, truncf_apply, maximumf_apply, addf_apply, broadcast_apply, row_bcast,
    Cert.Lib.PlainDot.matmul_zero_apply]
  rfl

/-! ## The host's composition at an entry -/

/-- The score of every edge, whole-array: relu(ef · A + a) · B + b in the host's operations on the five arrays. -/
abbrev score (ef : FVec Ideal Cert.ReferenceIdeal.S1600000x128 .f32) (A : FVec Ideal Cert.ReferenceIdeal.S128x64 .f32)
    (a : FVec Ideal Cert.ReferenceIdeal.S1x64 .f32) (B : FVec Ideal Cert.ReferenceIdeal.S64x1 .f32)
    (b : FVec Ideal Cert.ReferenceIdeal.S1x1 .f32) : FVec Ideal Cert.ReferenceIdeal.S1600000x1 .f32 :=
  addf (Host.dotGeneral (F := Ideal) (φ₁ := .f32) (φ₂ := .f32) (DotDims.plain 1600000 64 1) none
          (maximumf
            (addf (Host.dotGeneral (F := Ideal) (φ₁ := .f32) (φ₂ := .f32) (DotDims.plain 1600000 128 64) none ef A)
              (broadcastInDim Cert.ReferenceIdeal.S1600000x64 ![0, 1] Cert.ReferenceIdeal.Gen.bcast_S1x64_S1600000x64_0_1 a))
            (broadcastInDim Cert.ReferenceIdeal.S1600000x64 ![] Cert.ReferenceIdeal.Gen.bcast_S_S1600000x64 (constant (F := Ideal) Cert.ReferenceIdeal.S_ .f32 0x00000000#32)))
          B)
        (broadcastInDim Cert.ReferenceIdeal.S1600000x1 ![0, 1] Cert.ReferenceIdeal.Gen.bcast_S1x1_S1600000x1_0_1 b)

/-- The host's broadcast of the row a over the 1600000 edges reads a[0, k] at (P, k). -/
theorem host_row_bcast (a : FVec Ideal Cert.ReferenceIdeal.S1x64 .f32) (P : Fin 1600000) (k : Fin 64) :
    broadcastInDim Cert.ReferenceIdeal.S1600000x64 ![0, 1] Cert.ReferenceIdeal.Gen.bcast_S1x64_S1600000x64_0_1 a (ix2 P k)
      = a (ix2 0 k) :=
  broadcastInDim_apply _ _ a (ix2 P k) (ix2 0 k) (fun d => by match d with | ⟨0, _⟩ => rfl | ⟨1, _⟩ => rfl)

/-- The host's broadcast of the entry b reads b[0, 0] everywhere. -/
theorem host_entry_bcast (b : FVec Ideal Cert.ReferenceIdeal.S1x1 .f32) (P : Fin 1600000) (q : Fin 1) :
    broadcastInDim Cert.ReferenceIdeal.S1600000x1 ![0, 1] Cert.ReferenceIdeal.Gen.bcast_S1x1_S1600000x1_0_1 b (ix2 P q)
      = b (ix2 0 0) :=
  broadcastInDim_apply _ _ b (ix2 P q) (ix2 0 0) (fun d => by match d with | ⟨0, _⟩ => rfl | ⟨1, _⟩ => rfl)

/-- The host's zero, a rank-0 constant broadcast to every entry, is the same zero word the body compares with. -/
theorem host_zero_bcast (P : Fin 1600000) (k : Fin 64) :
    broadcastInDim Cert.ReferenceIdeal.S1600000x64 ![] Cert.ReferenceIdeal.Gen.bcast_S_S1600000x64
        (constant (F := Ideal) Cert.ReferenceIdeal.S_ .f32 0x00000000#32) (ix2 P k)
      = Ideal.ofBits .f32 0x00000000#32 := rfl

/-- Edge P's score: the same double sum, over row P of ef. -/
theorem score_apply (ef : FVec Ideal Cert.ReferenceIdeal.S1600000x128 .f32) (A : FVec Ideal Cert.ReferenceIdeal.S128x64 .f32)
    (a : FVec Ideal Cert.ReferenceIdeal.S1x64 .f32) (B : FVec Ideal Cert.ReferenceIdeal.S64x1 .f32)
    (b : FVec Ideal Cert.ReferenceIdeal.S1x1 .f32) (P : Fin 1600000) (q : Fin 1) :
    score ef A a B b (ix2 P q)
      = (∑ k : Fin 64, max ((∑ j : Fin 128, ef (ix2 P j) * A (ix2 j k)) + a (ix2 0 k)) (Ideal.ofBits .f32 0x00000000#32) * B (ix2 k q))
        + b (ix2 0 0) := by
  unfold score
  rw [addf_apply, host_entry_bcast]
  dsimp only [Host.dotGeneral]
  rw [Cert.Lib.PlainDot.dotGeneral_apply]
  congr 1
  refine Finset.sum_congr rfl fun k _ => ?_
  rw [maximumf_apply, addf_apply, host_row_bcast, host_zero_bcast, Cert.Lib.PlainDot.dotGeneral_apply]

/-! ## Where each block sits in its array -/

/-- The block positions over the 250 points: the blocks of ef and of the result are block t of their arrays along
    the rows and the only block along the columns; A, a, B and b are whole at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Entry (p, q) of the result's block at point t is entry (6400·t + p, q) of the result. -/
theorem emb_out (t : Fin cfg2.N) (p : Fin 6400) (q : Fin 1) (hp : t.val * 6400 + p.val < 1600000) :
    ((cfg2.win 5).blk t).view.emb (ix2 p q) = ix2 (n0 := 1600000) (n1 := 1) ⟨t.val * 6400 + p.val, hp⟩ q := by
  obtain ⟨e00, e01, e10, e11, e20, e21, e30, e31, e40, e41, e50, e51⟩ := idx_facts t
  funext a; apply Fin.ext
  match a with
  | ⟨0, _⟩ =>
    show win2_5.index t (0 : Fin 2) * 6400 + 1 * p.val = t.val * 6400 + p.val
    omega
  | ⟨1, _⟩ =>
    show win2_5.index t (1 : Fin 2) * 1 + 1 * q.val = q.val
    omega

/-- Entry (p, j) of the block of ef at point t is ef[6400·t + p, j]. -/
theorem blk0_read (c : Dev nD) (t : Fin cfg2.N) (p : Fin 6400) (j : Fin 128) (hp : t.val * 6400 + p.val < 1600000) :
    iblk2 V c 0 t (ix2 p j) = V c main_v80 (ix2 (n0 := 1600000) (n1 := 128) ⟨t.val * 6400 + p.val, hp⟩ j) := by
  obtain ⟨e00, e01, e10, e11, e20, e21, e30, e31, e40, e41, e50, e51⟩ := idx_facts t
  show V c main_v80 (((cfg2.win 0).blk t).view.emb (ix2 p j)) = _
  refine congrArg _ (funext fun a => Fin.ext ?_)
  match a with
  | ⟨0, _⟩ =>
    show win2_0.index t (0 : Fin 2) * 6400 + 1 * p.val = t.val * 6400 + p.val
    omega
  | ⟨1, _⟩ =>
    show win2_0.index t (1 : Fin 2) * 128 + 1 * j.val = j.val
    omega

/-- The block of A is A. -/
theorem blk1_read (c : Dev nD) (t : Fin cfg2.N) (j : Fin 128) (k : Fin 64) :
    iblk2 V c 1 t (ix2 j k) = V c main_arg6 (ix2 j k) := by
  obtain ⟨e00, e01, e10, e11, e20, e21, e30, e31, e40, e41, e50, e51⟩ := idx_facts t
  show V c main_arg6 (((cfg2.win 1).blk t).view.emb (ix2 j k)) = _
  refine congrArg _ (funext fun a => Fin.ext ?_)
  match a with
  | ⟨0, _⟩ =>
    show win2_1.index t (0 : Fin 2) * 128 + 1 * j.val = j.val
    omega
  | ⟨1, _⟩ =>
    show win2_1.index t (1 : Fin 2) * 64 + 1 * k.val = k.val
    omega

/-- The block of a is a. -/
theorem blk2_read (c : Dev nD) (t : Fin cfg2.N) (z : Fin 1) (k : Fin 64) :
    iblk2 V c 2 t (ix2 z k) = V c main_v81 (ix2 z k) := by
  obtain ⟨e00, e01, e10, e11, e20, e21, e30, e31, e40, e41, e50, e51⟩ := idx_facts t
  show V c main_v81 (((cfg2.win 2).blk t).view.emb (ix2 z k)) = _
  refine congrArg _ (funext fun a => Fin.ext ?_)
  match a with
  | ⟨0, _⟩ =>
    show win2_2.index t (0 : Fin 2) * 1 + 1 * z.val = z.val
    omega
  | ⟨1, _⟩ =>
    show win2_2.index t (1 : Fin 2) * 64 + 1 * k.val = k.val
    omega

/-- The block of B is B. -/
theorem blk3_read (c : Dev nD) (t : Fin cfg2.N) (k : Fin 64) (q : Fin 1) :
    iblk2 V c 3 t (ix2 k q) = V c main_arg8 (ix2 k q) := by
  obtain ⟨e00, e01, e10, e11, e20, e21, e30, e31, e40, e41, e50, e51⟩ := idx_facts t
  show V c main_arg8 (((cfg2.win 3).blk t).view.emb (ix2 k q)) = _
  refine congrArg _ (funext fun a => Fin.ext ?_)
  match a with
  | ⟨0, _⟩ =>
    show win2_3.index t (0 : Fin 2) * 64 + 1 * k.val = k.val
    omega
  | ⟨1, _⟩ =>
    show win2_3.index t (1 : Fin 2) * 1 + 1 * q.val = q.val
    omega

/-- The block of b is b. -/
theorem blk4_read (c : Dev nD) (t : Fin cfg2.N) (z : Fin 1) (q : Fin 1) :
    iblk2 V c 4 t (ix2 z q) = V c main_v82 (ix2 z q) := by
  obtain ⟨e00, e01, e10, e11, e20, e21, e30, e31, e40, e41, e50, e51⟩ := idx_facts t
  show V c main_v82 (((cfg2.win 4).blk t).view.emb (ix2 z q)) = _
  refine congrArg _ (funext fun a => Fin.ext ?_)
  match a with
  | ⟨0, _⟩ =>
    show win2_4.index t (0 : Fin 2) * 1 + 1 * z.val = z.val
    omega
  | ⟨1, _⟩ =>
    show win2_4.index t (1 : Fin 2) * 1 + 1 * q.val = q.val
    omega

/-! ## From the 250 blocks to the array -/

/-- What point t writes back is block t of the whole-array score: row p of the block is the body's double sum over
    row p of the block of ef, which is row 6400·t + p of ef, and that is edge 6400·t + p's score. -/
theorem flushed_eq (c : Dev nD) (t : Fin cfg2.N) :
    (dat2 (F := Ideal) V c).flushed 5 t = ((cfg2.win 5).blk t).view.read (Elt Ideal)
      (score (V c main_v80) (V c main_arg6) (V c main_v81) (V c main_arg8) (V c main_v82)) := by
  show (cfg2.win 5).cut (grid2.coords t) ((dat2 (F := Ideal) V c).after 5 t) = _
  rw [after2_5]
  unfold out2_5
  rw [View.canon_unit_zero hz]
  simp only [View.ld_unit_zero (S := S6400x128) hz, View.ld_unit_zero (S := S128x64) hz, View.ld_unit_zero (S := S1x64) hz,
    View.ld_unit_zero (S := S64x1) hz, View.ld_unit_zero (S := S1x1) hz]
  funext y
  show k2_pay1 (F := Ideal) (iblk2 V c 0 t) (iblk2 V c 1 t) (iblk2 V c 2 t) (iblk2 V c 3 t) (iblk2 V c 4 t) y
    = score (V c main_v80) (V c main_arg6) (V c main_v81) (V c main_arg8) (V c main_v82) (((cfg2.win 5).blk t).view.emb y)
  obtain ⟨p, q, rfl⟩ : ∃ (p : Fin 6400) (q : Fin 1), y = ix2 p q := ⟨y 0, y 1, eq_ix2 y⟩
  have hp : t.val * 6400 + p.val < 1600000 := by
    have h1 : t.val < 250 := t.isLt
    have h2 := p.isLt
    omega
  refine (pay_apply _ _ _ _ _ p q).trans ?_
  refine Eq.trans ?_ ((congrArg _ (emb_out t p q hp)).trans (score_apply _ _ _ _ _ ⟨t.val * 6400 + p.val, hp⟩ q)).symm
  simp only [blk0_read V c t p _ hp, blk1_read, blk2_read, blk3_read, blk4_read]

/-- An entry of the result is in point t's block iff each coordinate is in the block's range on its axis. -/
theorem mem_blk (t : Fin cfg2.N) (i : S1600000x1.Idx) :
    i ∈ ((cfg2.win 5).blk t).view.set ↔ ∀ a : Fin 2, win2_5.index t a * S6400x1.size a ≤ (i a).val
      ∧ (i a).val < win2_5.index t a * S6400x1.size a + S6400x1.size a := by
  show i ∈ ((View.whole main_v83).slice (win2_5.rect t)).set ↔ _
  rw [View.set_slice_whole, Rect.mem_set_unit]
  exact Iff.rfl

/-- The 250 blocks of 6400 rows tile the 1600000 rows: row r is in the block of point r / 6400, and every point
    writes its block back. -/
theorem covered (i : S1600000x1.Idx) :
    ∃ t : Fin cfg2.N, (cfg2.win 5).flush t = true ∧ i ∈ ((cfg2.win 5).blk t).view.set := by
  have hi0 : (i 0).val < 1600000 := (i 0).isLt
  have hi1 : (i 1).val < 1 := (i 1).isLt
  obtain ⟨t, ht⟩ : ∃ t : Fin cfg2.N, t.val = (i 0).val / 6400 :=
    ⟨⟨(i 0).val / 6400, by show (i 0).val / 6400 < 250; omega⟩, rfl⟩
  obtain ⟨e00, e01, e10, e11, e20, e21, e30, e31, e40, e41, e50, e51⟩ := idx_facts t
  refine ⟨t, flush2_5 t, ?_⟩
  rw [mem_blk]
  intro a
  match a with
  | ⟨0, _⟩ =>
    show win2_5.index t (0 : Fin 2) * 6400 ≤ (i 0).val ∧ (i 0).val < win2_5.index t (0 : Fin 2) * 6400 + 6400
    omega
  | ⟨1, _⟩ =>
    show win2_5.index t (1 : Fin 2) * 1 ≤ (i 1).val ∧ (i 1).val < win2_5.index t (1 : Fin 2) * 1 + 1
    omega

/-- After the region, its output array is the two-layer score of the five input arrays as the region found them:
    the host's operations, whole-array. -/
theorem region2_out (c : Dev nD) :
    (dat2 (F := Ideal) V c).arrAt 5 cfg2.N
      = addf (Host.dotGeneral (F := Ideal) (φ₁ := .f32) (φ₂ := .f32) (DotDims.plain 1600000 64 1) none
          (maximumf
            (addf (Host.dotGeneral (F := Ideal) (φ₁ := .f32) (φ₂ := .f32) (DotDims.plain 1600000 128 64) none (V c main_v80) (V c main_arg6))
              (broadcastInDim Cert.ReferenceIdeal.S1600000x64 ![0, 1] Cert.ReferenceIdeal.Gen.bcast_S1x64_S1600000x64_0_1 (V c main_v81)))
            (broadcastInDim Cert.ReferenceIdeal.S1600000x64 ![] Cert.ReferenceIdeal.Gen.bcast_S_S1600000x64 (constant (F := Ideal) Cert.ReferenceIdeal.S_ .f32 0x00000000#32)))
          (V c main_arg8))
        (broadcastInDim Cert.ReferenceIdeal.S1600000x1 ![0, 1] Cert.ReferenceIdeal.Gen.bcast_S1x1_S1600000x1_0_1 (V c main_v82)) :=
  (dat2 (F := Ideal) V c).arrAt_eq_of_cover 5
    (score (V c main_v80) (V c main_arg6) (V c main_v81) (V c main_arg8) (V c main_v82))
    (fun t _ => flushed_eq V c t) covered

end Cert.KernelIdeal.EdgeScore

end
-- ==== Proof.Result.lean ====
/-
  What the kernel's program returns, as the reference's own term of the launch arguments.

  The run of the program ends with its result buffer at the contents of the last segment boundary. Walking the
  boundaries forward: the first region leaves x · W1 (the plain product the reference computes on the host), the
  stretch after it the first layer's output; the second region leaves that output times W2, the stretch after it the
  node embeddings and from them the edge features; the third region leaves the two-layer score of the edge features,
  and the last operation drops the score's unit axis. At each step the value is the reference's stage function of the
  launch arguments, so the result is the reference's result term.
-/
import proofs.«146199_j7834020348027_1_alg».proof.Proof.HostStages
import proofs.«146199_j7834020348027_1_alg».proof.Proof.NodeTransform0
import proofs.«146199_j7834020348027_1_alg».proof.Proof.NodeTransform1
import proofs.«146199_j7834020348027_1_alg».proof.Proof.EdgeScore

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo
open Cert.ReferenceIdeal.ReadP Cert.KernelIdeal.HostStages

variable (m : (ℓ : Loc nD τ sig) → Buf (Elt Ideal) ℓ) (ρ : Dev nD → PrngReg)

/-- The first region's output array: x · W1. -/
theorem W4_v30 (c : Dev nD) :
    W4 m ρ c (Proc.devRef .tc main_v30) = val_main_v30 (F := Ideal) (m ((c : Thread nD τ).loc main_arg0)) (m ((c : Thread nD τ).loc main_arg2)) := by
  refine (W4_arr m ρ c 2).trans ?_
  rw [Cert.KernelIdeal.NodeTransform0.region0_out (V3 m ρ) c]
  rw [show V3 m ρ c main_arg0 = (m ((c : Thread nD τ).loc main_arg0)) from W3_arg0 m ρ c, show V3 m ρ c main_arg2 = (m ((c : Thread nD τ).loc main_arg2)) from W3_arg2 m ρ c]
  unfold val_main_v30
  rfl

/-- The second region's output array: the first layer's output times W2. -/
theorem W7_v48 (c : Dev nD) :
    W7 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  rw [Cert.KernelIdeal.NodeTransform1.region1_out (V6 m ρ) c]
  rw [show V6 m ρ c main_v47 = val_main_v47 (F := Ideal) (m ((c : Thread nD τ).loc main_arg0)) (m ((c : Thread nD τ).loc main_arg1)) (m ((c : Thread nD τ).loc main_arg2)) (m ((c : Thread nD τ).loc main_arg3)) from W6_v47 m ρ c (W4_v30 m ρ c),
    show V6 m ρ c main_arg4 = (m ((c : Thread nD τ).loc main_arg4)) from W6_arg4 m ρ c]
  unfold val_main_v48
  rfl

/-- The third region's output array: the score of every edge, as a one-column matrix. -/
theorem W11_v83 (c : Dev nD) :
    W11 m ρ c (Proc.devRef .tc main_v83) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W11_arr m ρ c 5).trans ?_
  rw [Cert.KernelIdeal.EdgeScore.region2_out (V10 m ρ) c]
  rw [show V10 m ρ c main_v80 = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) from W10_v80 m ρ c (W7_v48 m ρ c),
    show V10 m ρ c main_arg6 = (m ((c : Thread nD τ).loc main_arg6)) from W10_arg6 m ρ c,
    show V10 m ρ c main_v81 = val_main_v82 (F := Ideal) (m ((c : Thread nD τ).loc main_arg7)) from W10_v81 m ρ c,
    show V10 m ρ c main_arg8 = (m ((c : Thread nD τ).loc main_arg8)) from W10_arg8 m ρ c,
    show V10 m ρ c main_v82 = val_main_v87 (F := Ideal) (m ((c : Thread nD τ).loc main_arg9)) from W10_v82 m ρ c]
  unfold val_main_v89 val_main_v88 val_main_v86 val_main_v85 val_main_call3_v0 val_main_call3_cst val_main_v84 val_main_v83 val_main_v81
  rfl

/-- THE RESULT: the program's result buffer ends at the reference's result term of the launch arguments. -/
theorem result (c : Dev nD) :
    W12 m ρ c (Proc.devRef .tc main_v84) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (W11 m ρ c) (Proc.devRef .tc main_v84) = _
  after_results
  rw [W11_v83]
  rfl

end Cert.KernelIdeal.Result

end
-- ==== Proof.lean ====
/-
  The certificate of a two-layer graph convolution followed by an edge-scoring perceptron, against its reference.

  Both programs normalise the graph the same way on the host (degrees by a scatter-add over the edge targets and the
  self loops, inverse square roots, a weight per edge), and both run each convolution as: transform the node features
  by a matrix, gather the transformed rows by edge source, weight, scatter-add into the edge targets, add the bias,
  take the positive part. They differ in where three matrix computations run. The kernel's program runs the two node
  transforms x · W1 and h · W2 as grid-tiled kernels over blocks of 10000 rows, and the edge score
  relu(ef · A + a) · B + b as one fused kernel over blocks of 6400 edges, after casting operands to a shorter float
  format; the reference runs them as whole matrix products on the host. On the extended reals the casts are the
  identity and a product accumulated into zero is the plain sum over the contracted axis, so every block a kernel
  writes is the corresponding block of the host's product, and the blocks tile the rows: the three regions leave the
  arrays the reference's products compute. Everything else is the same operations on the same values, so the two
  results are one term of the arguments. No algebraic law beyond that is used, and the precondition is never opened.

  The three frames are the generated ones (the reference's from its run). The idealisation pass rewrote nothing, so
  the claim relating the kernel to its idealisation is trivial.
-/
import proofs.«146199_j7834020348027_1_alg».proof.Defs
import proofs.«146199_j7834020348027_1_alg».proof.Proof.Gen.Kernel
import proofs.«146199_j7834020348027_1_alg».proof.Proof.Gen.Kernel.Skeleton
import proofs.«146199_j7834020348027_1_alg».proof.Proof.Gen.Kernel.Launch
import proofs.«146199_j7834020348027_1_alg».proof.Proof.Gen.Kernel.Points
import proofs.«146199_j7834020348027_1_alg».proof.Proof.Gen.Kernel.Frame
import proofs.«146199_j7834020348027_1_alg».proof.Proof.Gen.KernelIdeal
import proofs.«146199_j7834020348027_1_alg».proof.Proof.Gen.KernelIdeal.Skeleton
import proofs.«146199_j7834020348027_1_alg».proof.Proof.Gen.KernelIdeal.Launch
import proofs.«146199_j7834020348027_1_alg».proof.Proof.Gen.KernelIdeal.Points
import proofs.«146199_j7834020348027_1_alg».proof.Proof.Gen.KernelIdeal.Frame
import proofs.«146199_j7834020348027_1_alg».proof.Proof.Gen.ReferenceIdeal
import proofs.«146199_j7834020348027_1_alg».proof.Proof.Gen.Pre_finite_inputs
import proofs.«146199_j7834020348027_1_alg».proof.Proof.KRun
import proofs.«146199_j7834020348027_1_alg».proof.Proof.RefRun
import proofs.«146199_j7834020348027_1_alg».proof.Proof.Result
import Idealize.ShloMosaic.Adequacy
import Idealize.ShloMosaic.Init

noncomputable section

namespace Cert.Proof

open Idealize.ShloMosaic Idealize.SL.Sem

/-- The kernel's program at the word level runs and leaves its arguments unchanged. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.RunStages.run (F := Ideal) m ρ)

/-- On the extended reals both programs end with the same scores: the reference's result term of the arguments. -/
theorem algebraic : Cert.algebraic_KernelIdeal_ReferenceIdeal := by
  intro m ρ m' ρ' _ hagree
  refine ⟨fun c => Cert.ReferenceIdeal.ReadP.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Result.result m ρ c), (h c).2⟩)
      (Cert.KernelIdeal.GenP.run_result m ρ)
  · refine (θ_run Cert.ReferenceIdeal.defs _ _).mono (fun r h c => ⟨?_, (h c).2⟩)
      (Cert.ReferenceIdeal.RunStages.run (F := Ideal) m' ρ')
    obtain ⟨e0, e1, e2, e3, e4, e5, e6, e7, e8, e9⟩ := hagree c
    rw [(h c).1, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
